-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x128 .f32) (main_arg1 : IVec S1600000 32) (main_arg2 : IVec S1600000 32) (main_arg3 : FVec F S1600000 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S5000x128 : Shape := ⟨2, ![5000, 128]⟩
abbrev S1x128 : Shape := ⟨2, ![1, 128]⟩

abbrev nBuf : Space → Nat
  | .hbm => 35
  | .vmem => 6
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128, .f32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x128, .f32⟩
  | .hbm, ⟨15, _⟩ => ⟨S1600000x1, .f32⟩
  | .hbm, ⟨16, _⟩ => ⟨S1600000x128, .f32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v21) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 42
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128, .f32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x128, .f32⟩
  | .hbm, ⟨15, _⟩ => ⟨S1600000x1, .f32⟩
  | .hbm, ⟨16, _⟩ => ⟨S1600000x128, .f32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S128x128, .f32⟩
  | .hbm, ⟨35, _⟩ => ⟨S100000x128, .f32⟩
  | .hbm, ⟨36, _⟩ => ⟨S1x128, .f32⟩
  | .hbm, ⟨37, _⟩ => ⟨S100000x128, .f32⟩
  | .hbm, ⟨38, _⟩ => ⟨S100000x128, .f32⟩
  | .hbm, ⟨39, _⟩ => ⟨S_, .f32⟩
  | .hbm, ⟨40, _⟩ => ⟨S100000x128, .f32⟩
  | .hbm, ⟨41, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call0_cst : Ref sig .tc := ⟨.hbm, 39, rfl⟩
abbrev main_call0_v0 : Ref sig .tc := ⟨.hbm, 40, rfl⟩
abbrev main_v27 : Ref sig .tc := ⟨.hbm, 41, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.NodeSpec.lean ====
/-
  The per-node stage of the message-passing layer, as ONE function of three arrays, index by index, on the
  extended reals: for a mean-aggregated feature matrix `h` of shape [100000, 128], a weight matrix `W` of shape
  [128, 128] and a bias `b` of shape [128],

      node h W b (p, q) = max (∑ k, h (p, k) * W (q, k) + b q) 0 ,

  that is relu (h · Wᵀ + b). The weight is read at (q, k): the layer multiplies by the TRANSPOSE of `W`.
  Both programs are shown to end at this function of the same aggregated matrix; no law beyond the
  re-indexing of a finite sum is needed, so no finiteness of the inputs is used.
-/
import Idealize.ShloMosaic.PureOps.Ideal
import Idealize.ShloMosaic.Lib.ValueIdx

noncomputable section

namespace Cert.NodeSpec

open Idealize.ShloMosaic Idealize.ShloMosaic.ValueIdx

/-- The node-feature shape [100000, 128]. -/
abbrev SNxD : Shape := ⟨2, ![100000, 128]⟩
/-- The weight shape [128, 128]. -/
abbrev SDxD : Shape := ⟨2, ![128, 128]⟩
/-- The bias shape [128]. -/
abbrev SD : Shape := ⟨1, ![128]⟩

/-- One output entry: the row `p` of `h` against the row `q` of `W`, plus the bias at `q`, clamped below at zero. -/
def entry (h : FVec Ideal SNxD .f32) (W : FVec Ideal SDxD .f32) (b : FVec Ideal SD .f32) (p : Fin 100000) (q : Fin 128) : EReal :=
  max ((∑ k : Fin 128, h (ix2 p k) * W (ix2 q k)) + b (ix1 q)) (Ideal.ofBits .f32 0x00000000#32)

/-- relu (h · Wᵀ + b), index by index. -/
def node (h : FVec Ideal SNxD .f32) (W : FVec Ideal SDxD .f32) (b : FVec Ideal SD .f32) : FVec Ideal SNxD .f32 :=
  fun i => entry h W b (i 0) (i 1)

theorem node_apply (h : FVec Ideal SNxD .f32) (W : FVec Ideal SDxD .f32) (b : FVec Ideal SD .f32) (i : SNxD.Idx) :
    node h W b i = entry h W b (i 0) (i 1) := rfl

end Cert.NodeSpec

end
-- ==== Proof.RefNode.lean ====
/-
  The reference's last stages, read at an index: after the shared aggregation its result is
  relu (h · Wᵀ + b) — a transpose of the weight, a product contracted over the feature axis, the bias
  broadcast along the rows, and a maximum with zero — which is `NodeSpec.node` of the aggregated matrix.
-/
import proofs.«122703_j4157528342757_1_alg».proof.Proof.Gen.ReferenceIdeal.Read
import proofs.«122703_j4157528342757_1_alg».proof.Proof.NodeSpec

noncomputable section

namespace Cert.RefNode

open Cert.ReferenceIdeal Cert.ReferenceIdeal.Read Cert.NodeSpec
open Idealize.ShloMosaic Idealize.ShloMosaic.ValueIdx

/-- The product's left factor at term `k` of entry `i` sits at (row of `i`, `k`). -/
theorem left_index (i : S100000x128.Idx) (k : Fin 128) : lidx_main_v23 i k = ix2 (i 0) k :=
  funext fun a => Fin.ext (by match a with | ⟨0, _⟩ => rfl | ⟨1, _⟩ => rfl)

/-- The product's right factor is the transposed weight at (`k`, column of `i`): the weight itself at (column of `i`, `k`). -/
theorem right_index (i : S100000x128.Idx) (k : Fin 128) : idx_main_v22 (ridx_main_v23 i k) = ix2 (i 1) k :=
  funext fun a => Fin.ext (by match a with | ⟨0, _⟩ => rfl | ⟨1, _⟩ => rfl)

/-- The bias, broadcast [128] → [1, 128] → [100000, 128], is read at the column of `i`. -/
theorem bias_index (i : S100000x128.Idx) : idx_main_v24 (idx_main_v25 i) = ix1 (i 1) :=
  funext fun a => Fin.ext (by match a with | ⟨0, _⟩ => rfl)

/-- The reference's result is `node` of its aggregated matrix (stage 21), the weight and the bias. -/
theorem result_is_node (x0 : (⟨S100000x128, .f32⟩ : BufTy).Contents (Elt Ideal)) (x1 x2 : (⟨S1600000, .i32⟩ : BufTy).Contents (Elt Ideal))
    (x3 : (⟨S1600000, .f32⟩ : BufTy).Contents (Elt Ideal)) (x4 : (⟨S128x128, .f32⟩ : BufTy).Contents (Elt Ideal))
    (x5 : (⟨S128, .f32⟩ : BufTy).Contents (Elt Ideal)) :
    val_main_v27 (F := Ideal) x0 x1 x2 x3 x4 x5 = node (val_main_v21 (F := Ideal) x0 x1 x2 x3) x4 x5 := by
  funext i
  rw [val_main_v27_apply, val_main_v26_apply, val_main_v23_apply, val_main_v25_apply, val_main_v24_apply,
    val_main_call0_v0_apply, val_main_call0_cst_apply, node_apply]
  simp only [val_main_v22_apply, left_index, right_index, bias_index, Ideal.maximumf_def, Ideal.addf_def, Ideal.ofBits_def]
  rfl

end Cert.RefNode

end
-- ==== Proof.KernelPay.lean ====
/-
  The kernel body's one stored value, read at an index of the [5000, 128] block: for a block `x` of the
  aggregated matrix, the weight `w` and the bias `v`,

      payload x w v (p, q) = max (∑ k, x (p, k) * w (q, k) + v q) 0 .

  The body narrows both factors to bf16 (the identity on the extended reals), transposes the weight,
  multiplies into a zero accumulator, adds the bias broadcast along the rows, and takes the maximum with zero.
-/
import proofs.«122703_j4157528342757_1_alg».proof.Proof.Gen.KernelIdeal.Skeleton
import proofs.«122703_j4157528342757_1_alg».proof.Proof.NodeSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelPay

open Cert.KernelIdeal Cert.KernelIdeal.Gen
open Idealize.ShloMosaic Idealize.ShloMosaic.ValueIdx

/-! ## The product's operand indices -/

theorem lhs_axis0 (i : S5000x128.Idx) (r : dot_S5000x128_S128x128_S5000x128_1_0_0_1_n_n.contr.Idx) :
    (dot_S5000x128_S128x128_S5000x128_1_0_0_1_n_n.lhsIdx i r 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

theorem lhs_axis1 (i : S5000x128.Idx) (r : dot_S5000x128_S128x128_S5000x128_1_0_0_1_n_n.contr.Idx) :
    (dot_S5000x128_S128x128_S5000x128_1_0_0_1_n_n.lhsIdx i r 1).val = (r ⟨0, by decide⟩).val :=
  dot_S5000x128_S128x128_S5000x128_1_0_0_1_n_n.lhsIdx_val_of_single rfl i r

theorem rhs_axis0 (i : S5000x128.Idx) (r : dot_S5000x128_S128x128_S5000x128_1_0_0_1_n_n.contr.Idx) :
    (dot_S5000x128_S128x128_S5000x128_1_0_0_1_n_n.rhsIdx i r 0).val = (r ⟨0, by decide⟩).val :=
  dot_S5000x128_S128x128_S5000x128_1_0_0_1_n_n.rhsIdx_val_of_single rfl i r

theorem rhs_axis1 (i : S5000x128.Idx) (r : dot_S5000x128_S128x128_S5000x128_1_0_0_1_n_n.contr.Idx) :
    (dot_S5000x128_S128x128_S5000x128_1_0_0_1_n_n.rhsIdx i r 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-! ## The three non-pointwise pieces -/

/-- The transposed weight at (k, q) is the weight at (q, k). -/
theorem transposed_weight {α : Type} (w : S128x128.Idx → α) (k q : Fin 128) :
    transpose S128x128 [1, 0] w transposes_S128x128_p1_0_S128x128 (ix2 k q) = w (ix2 q k) :=
  transpose_apply [1, 0] w transposes_S128x128_p1_0_S128x128 (ix2 k q) (ix2 q k) (fun b => match b with
    | ⟨0, _⟩ => rfl
    | ⟨1, _⟩ => rfl)

/-- The product into a zero accumulator, at (p, q): row `p` of the left factor against row `q` of the weight. -/
theorem product_apply (a : FVec Ideal S5000x128 .bf16) (w : FVec Ideal S128x128 .bf16) (p : Fin 5000) (q : Fin 128) :
    matmul dot_S5000x128_S128x128_S5000x128_1_0_0_1_n_n none a (transpose S128x128 [1, 0] w transposes_S128x128_p1_0_S128x128)
        (constant S5000x128 .f32 0x00000000#32) (ix2 p q)
      = ∑ k : Fin 128, a (ix2 p k) * w (ix2 q k) := by
  refine (Ideal.matmul_constant_zero_apply dot_S5000x128_S128x128_S5000x128_1_0_0_1_n_n none a _ (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q)
      ((ValueIdx.contrEquiv1 dot_S5000x128_S128x128_S5000x128_1_0_0_1_n_n 128 rfl rfl).symm k) = ix2 p k :=
    funext fun a => Fin.ext (by
      match a with
      | ⟨0, _⟩ => exact lhs_axis0 _ _
      | ⟨1, _⟩ => exact (lhs_axis1 _ _).trans hk)
  have er : dot_S5000x128_S128x128_S5000x128_1_0_0_1_n_n.rhsIdx (ix2 p q)
      ((ValueIdx.contrEquiv1 dot_S5000x128_S128x128_S5000x128_1_0_0_1_n_n 128 rfl rfl).symm k) = ix2 k q :=
    funext fun a => Fin.ext (by
      match a with
      | ⟨0, _⟩ => exact (rhs_axis0 _ _).trans hk
      | ⟨1, _⟩ => exact rhs_axis1 _ _)
  rw [el, er, transposed_weight]

/-- The bias, cast [128] → [1, 128] and broadcast to [5000, 128], at (p, q) is the bias at `q`. -/
theorem bias_apply {α : Type} (v : S128.Idx → α) (p : Fin 5000) (q : Fin 128) :
    broadcastTo S5000x128 (shapeCast S1x128 v shapeCasts_S128_S1x128) broadcasts_S1x128_S5000x128 (ix2 p q) = v (ix1 q) :=
  (broadcastTo_1b_ab_apply (shapeCast S1x128 v shapeCasts_S128_S1x128) broadcasts_S1x128_S5000x128 p q).trans
    (shapeCast_a_1a_apply v shapeCasts_S128_S1x128 (0 : Fin 1) q)

/-! ## The payload -/

/-- The stored value at (p, q). -/
theorem payload_apply (x : Vec Ideal S5000x128 .f32) (w : Vec Ideal S128x128 .f32) (v : Vec Ideal S128 .f32) (p : Fin 5000) (q : Fin 128) :
    k0_pay1 (F := Ideal) x w v (ix2 p q)
      = max ((∑ k : Fin 128, x (ix2 p k) * w (ix2 q k)) + v (ix1 q)) (Ideal.ofBits .f32 0x00000000#32) := by
  unfold k0_pay1
  simp only [maximumf_apply, addf_apply, broadcast_apply]
  rw [product_apply, bias_apply]
  simp only [truncf_apply, shapeCast_self]
  rfl

end Cert.KernelPay

end
-- ==== Proof.KernelValue.lean ====
/-
  The kernel's result array. The grid has 20 points; point `t` reads rows 5000·t … 5000·t + 4999 of the
  aggregated matrix (window 0), the whole weight and the whole bias (windows 1 and 2, block index 0 at every
  point), and writes rows 5000·t … 5000·t + 4999 of the result (window 3). Row `r` of the result is therefore
  written by point r / 5000, the 20 blocks cover the array, and every entry written is
  `NodeSpec.node` of the aggregated matrix, the weight and the bias at that entry.
-/
import proofs.«122703_j4157528342757_1_alg».proof.Proof.Gen.KernelIdeal.Value
import proofs.«122703_j4157528342757_1_alg».proof.Proof.KernelPay
import proofs.«122703_j4157528342757_1_alg».proof.Proof.NodeSpec

noncomputable section

namespace Cert.KernelNode

open Cert.KernelIdeal Cert.KernelIdeal.Gen Cert.NodeSpec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem origin2 : (![0, 0] : Fin 2 → Nat) = fun _ => 0 := funext fun a => by fin_cases a <;> rfl
theorem origin1 : (![0] : Fin 1 → Nat) = fun _ => 0 := funext fun a => by fin_cases a; rfl

/-- The index maps over the 20 points: windows 0 and 3 move down the rows with the point, windows 1 and 2 stay. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- A block of rows n·5000 … of `H`, with the whole of `W` and `B`: the stored value at `y` is `node H W B` at the
    array index `i` that `y` is, in block `n`. -/
theorem block_is_node (H : FVec Ideal S100000x128 .f32) (W : FVec Ideal S128x128 .f32) (B : FVec Ideal S128 .f32)
    (x : Vec Ideal S5000x128 .f32) (w : Vec Ideal S128x128 .f32) (v : Vec Ideal S128 .f32) (n : Nat)
    (hx : ∀ (p : Fin 5000) (k : Fin 128) (r : Fin 100000), r.val = n * 5000 + p.val → x (ix2 p k) = H (ix2 r k))
    (hw : ∀ q k : Fin 128, w (ix2 q k) = W (ix2 q k))
    (hv : ∀ q : Fin 128, v (ix1 q) = B (ix1 q))
    (y : S5000x128.Idx) (i : S100000x128.Idx) (h0 : (i 0).val = n * 5000 + (y 0).val) (h1 : (i 1).val = (y 1).val) :
    k0_pay1 (F := Ideal) x w v y = node H W B i := by
  obtain ⟨p, q, rfl⟩ : ∃ (p : Fin 5000) (q : Fin 128), y = ix2 p q := ⟨y 0, y 1, eq_ix2 y⟩
  rw [KernelPay.payload_apply, node_apply]
  unfold entry
  have hq : i 1 = q := Fin.ext h1
  rw [hq, hv q]
  refine congrArg (fun s => max (s + B (ix1 q)) (Ideal.ofBits .f32 0x00000000#32)) ?_
  refine Finset.sum_congr rfl fun k _ => ?_
  rw [hx p k (i 0) h0, hw q k]

/-! ## Blocks read and written at a symbolic point -/

/-- Window 0's block at point `t` is rows 5000·t … of its array. -/
theorem rows_read (t : Fin cfg0.N) (A : FVec Ideal S100000x128 .f32) (p : Fin 5000) (k : Fin 128) (r : Fin 100000)
    (hr : r.val = t.val * 5000 + p.val) :
    ((cfg0.win 0).blk t).view.read (Elt Ideal) A (ix2 p k) = A (ix2 r k) := by
  obtain ⟨e00, e01, -, -, -, -, -⟩ := index_facts t
  show A (((cfg0.win 0).blk t).view.emb (ix2 p k)) = A (ix2 r k)
  refine congrArg A (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- Window 1's block at every point is the whole weight. -/
theorem weight_read (t : Fin cfg0.N) (A : FVec Ideal S128x128 .f32) (q k : Fin 128) :
    ((cfg0.win 1).blk t).view.read (Elt Ideal) A (ix2 q k) = A (ix2 q k) := by
  obtain ⟨-, -, e10, e11, -, -, -⟩ := index_facts t
  show A (((cfg0.win 1).blk t).view.emb (ix2 q k)) = A (ix2 q k)
  refine congrArg A (funext fun a => Fin.ext ?_)
  match a with
  | ⟨0, _⟩ => show win0_1.index t (0 : Fin 2) * 128 + 1 * q.val = q.val; omega
  | ⟨1, _⟩ => show win0_1.index t (1 : Fin 2) * 128 + 1 * k.val = k.val; omega

/-- Window 2's block at every point is the whole bias. -/
theorem bias_read (t : Fin cfg0.N) (A : FVec Ideal S128 .f32) (q : Fin 128) :
    ((cfg0.win 2).blk t).view.read (Elt Ideal) A (ix1 q) = A (ix1 q) := by
  obtain ⟨-, -, -, -, e20, -, -⟩ := index_facts t
  show A (((cfg0.win 2).blk t).view.emb (ix1 q)) = A (ix1 q)
  refine congrArg A (funext fun a => Fin.ext ?_)
  match a with
  | ⟨0, _⟩ => show win0_2.index t (0 : Fin 1) * 128 + 1 * q.val = q.val; omega

/-- What point `t` writes back of a result buffer `P` is block `t` of an array `G`, when `P` at `y` is `G` at row
    5000·t + (row of `y`), same column. -/
theorem written_is_block (t : Fin cfg0.N) (G : FVec Ideal S100000x128 .f32) (P : FVec Ideal S5000x128 .f32)
    (h : ∀ (y : S5000x128.Idx) (i : S100000x128.Idx), (i 0).val = t.val * 5000 + (y 0).val → (i 1).val = (y 1).val → P y = G i) :
    (cfg0.win 3).cut (grid0.coords t) P = ((cfg0.win 3).blk t).view.read (Elt Ideal) G := by
  obtain ⟨-, -, -, -, -, e30, e31⟩ := index_facts t
  funext j
  show P ((cfg0.win 3).xinj (grid0.coords t) j) = G (((cfg0.win 3).blk t).view.emb j)
  refine h _ _ ?_ ?_
  · show win0_3.index t (0 : Fin 2) * 5000 + 1 * (j 0).val = t.val * 5000 + (j 0).val; omega
  · show win0_3.index t (1 : Fin 2) * 128 + 1 * (j 1).val = (j 1).val; omega

/-- WHAT POINT `t` WRITES BACK is block `t` of `node` of the arrays as the region finds them. -/
theorem flushed_is_node (c : Dev nD) (t : Fin cfg0.N) :
    (dats m 0 c).flushed 3 t
      = ((cfg0.win 3).blk t).view.read (Elt Ideal) (node (V m c main_v21) (V m c main_arg4) (V m c main_arg5)) := by
  rw [Value.flushed3]
  unfold out0_3
  rw [View.canon_unit_zero origin2]
  simp only [View.ld_unit_zero (S := S5000x128) origin2, View.ld_unit_zero (S := S128x128) origin2,
    View.ld_unit_zero (S := S128) origin1]
  refine written_is_block t (node (V m c main_v21) (V m c main_arg4) (V m c main_arg5))
    (k0_pay1 (iblk m c 0 t) (iblk m c 1 t) (iblk m c 2 t)) (fun y i h0 h1 => ?_)
  exact block_is_node (V m c main_v21) (V m c main_arg4) (V m c main_arg5) (iblk m c 0 t) (iblk m c 1 t) (iblk m c 2 t) t.val
    (fun p k r hr => rows_read t (V m c main_v21) p k r hr) (fun q k => weight_read t (V m c main_arg4) q k)
    (fun q => bias_read t (V m c main_arg5) q) y i h0 h1

/-- An index of the array is in point `t`'s block iff each coordinate is in the block's range on its axis. -/
theorem mem_block (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v22).slice (win0_3.rect t)).set ↔ _
  rw [View.set_slice_whole, Rect.mem_set_unit]
  exact Iff.rfl

/-- Every index of the result lies in the block of the point its row divided by 5000 names. -/
theorem covered (i : S100000x128.Idx) :
    ∃ t : Fin cfg0.N, (cfg0.win 3).flush t = true ∧ i ∈ ((cfg0.win 3).blk t).view.set := by
  have hN : cfg0.N = 20 := N_0
  have hi0 : (i 0).val < 100000 := (i 0).isLt
  have hi1 : (i 1).val < 128 := (i 1).isLt
  obtain ⟨t, ht⟩ : ∃ t : Fin cfg0.N, t.val = (i 0).val / 5000 := ⟨⟨(i 0).val / 5000, by omega⟩, rfl⟩
  obtain ⟨-, -, -, -, -, e30, e31⟩ := index_facts t
  refine ⟨t, flush0_3 t, ?_⟩
  rw [mem_block]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 128 ≤ (i 1).val ∧ (i 1).val < win0_3.index t (1 : Fin 2) * 128 + 128
    omega

/-- THE ARRAY after the run: `node` of the aggregated matrix, the weight and the bias as the region finds them. -/
theorem final (c : Dev nD) :
    (dats m 0 c).arrAt 3 cfg0.N = node (V m c main_v21) (V m c main_arg4) (V m c main_arg5) :=
  (dats m 0 c).arrAt_eq_of_cover 3 (node (V m c main_v21) (V m c main_arg4) (V m c main_arg5))
    (fun t _ => flushed_is_node m c t) covered

/-- The run, read: the result array ends at `node` of the aggregated matrix as the region finds it and of the weight
    and the bias as launched; the six arguments end unchanged. -/
theorem run : θ_run defs (onTc (τ := τ) (main (F := Ideal))) ⟨m, fun _ => 0, ρ⟩ fun r => ∀ c : Dev nD,
      r.2.mem ((c : Thread nD τ).loc main_v22)
        = node (V m c main_v21) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans ((final m c).trans (by rw [V_main_arg4, V_main_arg5])), (h c).2⟩)
    (Value.run_blocks m ρ)

end Cert.KernelNode

end
-- ==== Proof.Aggregate.lean ====
/-
  The aggregation both programs share. Before its per-node stage each program computes, by the same host
  operations on the same arguments — negative source indices wrapped, the source rows gathered and scaled by the
  edge weights, the scaled rows summed into their target nodes, the sum divided by max (in-degree, 1) —, the
  mean-aggregated feature matrix. The kernel program's array as its region finds it is, operation for operation,
  the reference's stage 21 of the same arguments; nothing of the aggregation is opened.
-/
import proofs.«122703_j4157528342757_1_alg».proof.Proof.Gen.KernelIdeal.Frame
import proofs.«122703_j4157528342757_1_alg».proof.Proof.Gen.ReferenceIdeal.Read
import Idealize.ShloMosaic.Lib.StableHlo.Run

noncomputable section

namespace Cert.Aggregate

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

/-- The matrix the kernel's region reads is the reference's aggregated matrix of the same four arguments. -/
theorem region_input (c : Dev nD) :
    (V m c main_v21 : S100000x128.Idx → EReal)
      = Cert.ReferenceIdeal.Read.val_main_v21 (F := Ideal) (m ((c : Thread nD τ).loc main_arg0))
          (m ((c : Thread nD τ).loc main_arg1)) (m ((c : Thread nD τ).loc main_arg2)) (m ((c : Thread nD τ).loc main_arg3)) := by
  dsimp only [V, hostOps0]
  after_results_simp
  rfl

end Cert.Aggregate

end
-- ==== Proof.lean ====
/-
  The certificate of one message-passing layer: gather the source rows, scale them by the edge weights, sum them
  into their target nodes, divide by max (in-degree, 1), then per node a linear map and a relu.
  Both programs compute the mean aggregation by the same host operations on the same arguments; they differ only
  in the per-node stage. The kernel runs it block by block over 20 blocks of 5000 rows: both factors narrowed to
  bf16 (the identity on the extended reals), a product with the transposed weight into a zero accumulator, the bias
  added along the rows, a maximum with zero. The reference runs it on the whole array: a transpose, a product
  contracted over the feature axis, the bias broadcast, a maximum with zero. Index by index both are

      max (∑ k, h (p, k) * W (q, k) + b q) 0

  of the same aggregated matrix `h` (`NodeSpec.node`): the two sums run over the same 128 terms, so nothing beyond
  re-indexing a finite sum joins the two sides, and the finiteness of the inputs is never used.
  The kernel's idealization rewrote no operation, so there is nothing to preserve.
-/
import proofs.«122703_j4157528342757_1_alg».proof.Defs
import proofs.«122703_j4157528342757_1_alg».proof.Proof.Gen.Kernel
import proofs.«122703_j4157528342757_1_alg».proof.Proof.Gen.Kernel.Skeleton
import proofs.«122703_j4157528342757_1_alg».proof.Proof.Gen.Kernel.Launch
import proofs.«122703_j4157528342757_1_alg».proof.Proof.Gen.Kernel.Points
import proofs.«122703_j4157528342757_1_alg».proof.Proof.Gen.Kernel.Frame
import proofs.«122703_j4157528342757_1_alg».proof.Proof.Gen.KernelIdeal
import proofs.«122703_j4157528342757_1_alg».proof.Proof.Gen.KernelIdeal.Skeleton
import proofs.«122703_j4157528342757_1_alg».proof.Proof.Gen.KernelIdeal.Launch
import proofs.«122703_j4157528342757_1_alg».proof.Proof.Gen.KernelIdeal.Points
import proofs.«122703_j4157528342757_1_alg».proof.Proof.Gen.KernelIdeal.Frame
import proofs.«122703_j4157528342757_1_alg».proof.Proof.Gen.ReferenceIdeal
import proofs.«122703_j4157528342757_1_alg».proof.Proof.Gen.Pre_finite_inputs
import proofs.«122703_j4157528342757_1_alg».proof.Proof.Gen.KernelIdeal.Value
import proofs.«122703_j4157528342757_1_alg».proof.Proof.Gen.ReferenceIdeal.Run
import proofs.«122703_j4157528342757_1_alg».proof.Proof.Gen.ReferenceIdeal.Read
import proofs.«122703_j4157528342757_1_alg».proof.Proof.NodeSpec
import proofs.«122703_j4157528342757_1_alg».proof.Proof.RefNode
import proofs.«122703_j4157528342757_1_alg».proof.Proof.KernelValue
import proofs.«122703_j4157528342757_1_alg».proof.Proof.Aggregate
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both runs end at `node` of the kernel program's aggregated matrix, the weight and the bias: the kernel's by its
    blocks (`KernelNode.run`), the reference's by its last stages read at an index (`RefNode.result_is_node`) and the
    shared aggregation (`Aggregate.region_input`), the arguments agreeing. -/
theorem algebraic : Cert.algebraic_KernelIdeal_ReferenceIdeal := by
  intro m ρ m' ρ' _ hagree
  refine ⟨_, Cert.KernelNode.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.RefNode.result_is_node, (hagree c).1, (hagree c).2.1,
    (hagree c).2.2.1, (hagree c).2.2.2.1, (hagree c).2.2.2.2.1, (hagree c).2.2.2.2.2, ← Cert.Aggregate.region_input m c]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
